-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 28
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S128x128, .bf16⟩
  | .hbm, ⟨27, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_1_0 : S2x1600000.Slices ![1, 0] S1x1600000
  shapeCasts_S1x1600000_S1600000 : S1x1600000.ShapeCasts S1600000
  slices_S2x1600000_S1x1600000_0_0 : S2x1600000.Slices ![0, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S_, .f32⟩
  | .hbm, ⟨33, _⟩ => ⟨S100000x128, .f32⟩
  | .hbm, ⟨34, _⟩ => ⟨S100000x128, .i1⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  slices_S2x1600000_S1x1600000_0_0 : S2x1600000.Slices ![0, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The function both programs compute, stated once over plain arrays of extended reals.

  For a table `x` and a neighbourhood sum `s` of the same [M, 128] shape, a [128, 128] matrix `wt` laid with the
  contraction coordinate first, and a bias row `b`, the entry (i, j) of the result is the leaky rectifier of
      ∑ k, (x (i, k) + s (i, k)) · wt (k, j) + b j.
  The rectifier keeps a positive value and scales the others by a fixed slope; whether zero is counted with the
  positive values or with the others makes no difference, because the slope times zero is zero.
-/
import Idealize.ShloMosaic.Lib.ValueIdx
import Idealize.ShloMosaic.PureOps.Ideal

open scoped BigOperators

noncomputable section

namespace Cert.LinearAct

open Idealize.ShloMosaic Idealize.ShloMosaic.ValueIdx

/-- The rectifier's slope: the value of the one float literal both programs carry for it. -/
def slope : EReal := Ideal.ofBits .f32 0x3C23D70A#32

/-- The leaky rectifier on the extended reals. -/
def leaky (h : EReal) : EReal := if 0 < h then h else slope * h

/-- A choice on "the value is greater than zero". -/
theorem select_gt (h x y : EReal) : Scalar.select (Ideal.cmp .ogt h 0) x y = if 0 < h then x else y := by
  unfold Scalar.select Ideal.cmp
  by_cases hh : 0 < h <;> simp [hh]

/-- A choice on "the value is at least zero" between the value and the slope times it is the same rectifier: at
    zero both branches are zero. -/
theorem select_ge (h : EReal) : Scalar.select (Ideal.cmp .oge h 0) h (slope * h) = leaky h := by
  unfold Scalar.select Ideal.cmp leaky
  rcases lt_trichotomy 0 h with hh | hh | hh
  · simp [hh, hh.le]
  · subst hh; simp
  · simp [not_lt.mpr hh.le, not_le.mpr hh]

variable {M M' : ℕ}

/-- The pre-activation at (i, j). -/
def pre (x s : (⟨2, ![M, 128]⟩ : Shape).Idx → EReal) (wt : (⟨2, ![128, 128]⟩ : Shape).Idx → EReal)
    (b : (⟨1, ![128]⟩ : Shape).Idx → EReal) (i : Fin M) (j : Fin 128) : EReal :=
  (∑ k : Fin 128, (x (ix2 i k) + s (ix2 i k)) * wt (ix2 k j)) + b (ix1 j)

/-- The pre-activation only reads row i of the two tables, column j of the matrix and entry j of the bias. -/
theorem pre_congr (x s : (⟨2, ![M, 128]⟩ : Shape).Idx → EReal) (x' s' : (⟨2, ![M', 128]⟩ : Shape).Idx → EReal)
    (wt wt' : (⟨2, ![128, 128]⟩ : Shape).Idx → EReal) (b b' : (⟨1, ![128]⟩ : Shape).Idx → EReal)
    (i : Fin M) (i' : Fin M') (j : Fin 128)
    (hx : ∀ k : Fin 128, x (ix2 i k) = x' (ix2 i' k)) (hs : ∀ k : Fin 128, s (ix2 i k) = s' (ix2 i' k))
    (hw : ∀ k : Fin 128, wt (ix2 k j) = wt' (ix2 k j)) (hb : b (ix1 j) = b' (ix1 j)) :
    pre x s wt b i j = pre x' s' wt' b' i' j := by
  unfold pre
  rw [hb]
  exact congrArg (· + b' (ix1 j)) (Finset.sum_congr rfl fun k _ => by rw [hx k, hs k, hw k])

/-- The result array. -/
def out (x s : (⟨2, ![M, 128]⟩ : Shape).Idx → EReal) (wt : (⟨2, ![128, 128]⟩ : Shape).Idx → EReal)
    (b : (⟨1, ![128]⟩ : Shape).Idx → EReal) : (⟨2, ![M, 128]⟩ : Shape).Idx → EReal :=
  fun idx => leaky (pre x s wt b (idx 0) (idx 1))

theorem out_ix2 (x s : (⟨2, ![M, 128]⟩ : Shape).Idx → EReal) (wt : (⟨2, ![128, 128]⟩ : Shape).Idx → EReal)
    (b : (⟨1, ![128]⟩ : Shape).Idx → EReal) (i : Fin M) (j : Fin 128) :
    out x s wt b (ix2 i j) = leaky (pre x s wt b i j) := rfl

end Cert.LinearAct

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.KernelPay.lean ====
/-
  Entry (p, q) of the value the idealized kernel's body stores, over the four blocks it loaded: the leaky rectifier
  of ∑ k, (x (p, k) + s (p, k)) · wt (k, q) + b q. The matrix product into a zero accumulator is that sum on the extended
  reals, the narrowing of the left operand is the identity there, and the bias is a row laid over all 5000 rows.
-/
import proofs.«163822_j19670950216024_1_alg».proof.Proof.Gen.KernelIdeal.Skeleton
import proofs.«163822_j19670950216024_1_alg».proof.Proof.Spec
import proofs.«163822_j19670950216024_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.KValue

open Cert.KernelIdeal Cert.KernelIdeal.Gen Idealize.ShloMosaic
open Idealize.ShloMosaic.ValueIdx Cert.LinearAct
/-! ## The body's stored value at an entry -/

/-- The body's matrix product is the plain one: left operand contracted on its second axis, right on its first. -/
theorem dot_plain : dot_S5000x128_S128x128_S5000x128_1_0_0_1_n_n = DotDims.plain 5000 128 128 := rfl

/-- The pre-activation block the body computes from its four loads. -/
def hvec (x0 x1 : FVec Ideal S5000x128 .f32) (x2 : FVec Ideal S128x128 .bf16) (x3 : FVec Ideal S128 .f32) : FVec Ideal S5000x128 .f32 :=
  addf
    (matmul dot_S5000x128_S128x128_S5000x128_1_0_0_1_n_n none
      (truncf .bf16 (addf x0 (shapeCast S5000x128 x1 shapeCasts_S5000x128_S5000x128)) bitsLt_bf16_f32)
      (shapeCast S128x128 x2 shapeCasts_S128x128_S128x128) (constant S5000x128 .f32 0x00000000#32))
    (broadcastTo S5000x128 (shapeCast S1x128 x3 shapeCasts_S128_S1x128) broadcasts_S1x128_S5000x128)

/-- Entry (p, q) of the pre-activation block. -/
theorem hvec_apply (x0 x1 : FVec Ideal S5000x128 .f32) (x2 : FVec Ideal S128x128 .bf16) (x3 : FVec Ideal S128 .f32)
    (p : Fin 5000) (q : Fin 128) : hvec x0 x1 x2 x3 (ix2 p q) = pre x0 x1 x2 x3 p q := by
  unfold hvec pre
  rw [addf_apply, dot_plain, MatmulPlain.matmul_zero_apply, broadcastTo_1b_ab_apply, shapeCast_a_1a_apply,
    shapeCast_self, shapeCast_self]
  rfl

/-- The stored value is the rectifier's choice over the pre-activation block. -/
theorem pay_eq (x0 x1 : FVec Ideal S5000x128 .f32) (x2 : FVec Ideal S128x128 .bf16) (x3 : FVec Ideal S128 .f32) :
    k0_pay1 (F := Ideal) x0 x1 x2 x3
      = select (cmpf .ogt (hvec x0 x1 x2 x3) (broadcast S5000x128 (Scalar.ofBits .f32 0x00000000#32))) (hvec x0 x1 x2 x3)
          (mulf (broadcast S5000x128 (Scalar.ofBits .f32 0x3C23D70A#32)) (hvec x0 x1 x2 x3)) := rfl

/-- Entry (p, q) of the stored value. -/
theorem pay_apply (x0 x1 : FVec Ideal S5000x128 .f32) (x2 : FVec Ideal S128x128 .bf16) (x3 : FVec Ideal S128 .f32)
    (p : Fin 5000) (q : Fin 128) : k0_pay1 (F := Ideal) x0 x1 x2 x3 (ix2 p q) = leaky (pre x0 x1 x2 x3 p q) := by
  rw [pay_eq, select_apply, cmpf_apply, mulf_apply, broadcast_apply, broadcast_apply, hvec_apply]
  show Scalar.select (Ideal.cmp .ogt (pre x0 x1 x2 x3 p q) (Ideal.ofBits .f32 0x00000000#32)) (pre x0 x1 x2 x3 p q)
      (Ideal.ofBits .f32 0x3C23D70A#32 * pre x0 x1 x2 x3 p q) = _
  rw [Ideal.ofBits_zero_f32, select_gt]
  rfl

end Cert.KernelIdeal.KValue

end
-- ==== Proof.KernelBlocks.lean ====
/-
  The blocks of the idealized kernel's one region. The region runs over 20 grid points; point t reads rows
  5000·t … 5000·t + 4999 of the table and of the neighbourhood sum, the whole [128, 128] matrix and the whole bias
  row, and writes the same rows of the result: a block's row p is the array's row 5000·t + p.
-/
import proofs.«163822_j19670950216024_1_alg».proof.Proof.Gen.KernelIdeal.Frame
import Idealize.ShloMosaic.Lib.ValueIdx
import Idealize.ShloMosaic.Lib.Pipeline.Value

open scoped BigOperators

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
/-! ## The blocks -/

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two tables and the result move one block of rows per point; the
    matrix and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row p of point t's block is row 5000·t + p of the array. -/
def row (t : Fin cfg0.N) (p : Fin 5000) : Fin 100000 :=
  ⟨t.val * 5000 + p.val, by have ht : t.val < 20 := N_0 ▸ t.isLt; have hp := p.isLt; omega⟩

theorem blk0_read (c : Dev nD) (t : Fin cfg0.N) (p : Fin 5000) (k : Fin 128) :
    iblk m c 0 t (ix2 p k) = V m c main_arg0 (ix2 (row t p) k) := by
  show V m c main_arg0 (((cfg0.win 0).blk t).view.emb (ix2 p k)) = V m c main_arg0 (ix2 (row t p) k)
  refine congrArg (V m c main_arg0) (funext fun a => Fin.ext ?_)
  obtain ⟨e0, e1, -⟩ := idx_facts t
  match a with
  | ⟨0, _⟩ => show win0_0.index t (0 : Fin 2) * 5000 + 1 * p.val = t.val * 5000 + p.val; omega
  | ⟨1, _⟩ => show win0_0.index t (1 : Fin 2) * 128 + 1 * k.val = k.val; omega

/-- Entry (p, k) of point t's block of the second operand is entry (5000·t + p, k) of the array, whatever the array holds. -/
theorem read1 (c : Dev nD) (A : Buf (Elt Ideal) ((c : Thread nD τ).loc (Pipeline.arrRef spec0 1))) (t : Fin cfg0.N) (p : Fin 5000) (k : Fin 128) :
    ((cfg0.win 1).blk t).view.read (Elt Ideal) A (ix2 p k) = A (ix2 (row t p) k) := by
  show A (((cfg0.win 1).blk t).view.emb (ix2 p k)) = A (ix2 (row t p) k)
  refine congrArg A (funext fun a => Fin.ext ?_)
  obtain ⟨-, -, e0, e1, -⟩ := idx_facts t
  match a with
  | ⟨0, _⟩ => show win0_1.index t (0 : Fin 2) * 5000 + 1 * p.val = t.val * 5000 + p.val; omega
  | ⟨1, _⟩ => show win0_1.index t (1 : Fin 2) * 128 + 1 * k.val = k.val; omega

/-- Row p of point t's block of the neighbourhood sum, which the host computed before the region, is row 5000·t + p
    of that array. -/
theorem blk1_read (c : Dev nD) (t : Fin cfg0.N) (p : Fin 5000) (k : Fin 128) :
    iblk m c 1 t (ix2 p k) = V m c (Pipeline.arrRef spec0 1) (ix2 (row t p) k) := by
  unfold iblk
  exact read1 c (V m c (Pipeline.arrRef spec0 1)) t p k

theorem blk2_read (c : Dev nD) (t : Fin cfg0.N) (k q : Fin 128) :
    iblk m c 2 t (ix2 k q) = V m c main_v18 (ix2 k q) := by
  show V m c main_v18 (((cfg0.win 2).blk t).view.emb (ix2 k q)) = V m c main_v18 (ix2 k q)
  refine congrArg (V m c main_v18) (funext fun a => Fin.ext ?_)
  obtain ⟨-, -, -, -, e0, e1, -⟩ := idx_facts t
  match a with
  | ⟨0, _⟩ => show win0_2.index t (0 : Fin 2) * 128 + 1 * k.val = k.val; omega
  | ⟨1, _⟩ => show win0_2.index t (1 : Fin 2) * 128 + 1 * q.val = q.val; omega

theorem blk3_read (c : Dev nD) (t : Fin cfg0.N) (q : Fin 128) :
    iblk m c 3 t (ix1 q) = V m c main_arg4 (ix1 q) := by
  show V m c main_arg4 (((cfg0.win 3).blk t).view.emb (ix1 q)) = V m c main_arg4 (ix1 q)
  refine congrArg (V m c main_arg4) (funext fun a => Fin.ext ?_)
  obtain ⟨-, -, -, -, -, -, e0, -⟩ := idx_facts t
  match a with
  | ⟨0, _⟩ => show win0_3.index t (0 : Fin 1) * 128 + 1 * q.val = q.val; omega

/-- Entry (p, q) of the result's block at point t is entry (5000·t + p, q) of the result. -/
theorem emb4 (t : Fin cfg0.N) (p : Fin 5000) (q : Fin 128) :
    ((cfg0.win 4).blk t).view.emb (ix2 p q) = ix2 (row t p) q := by
  refine funext fun a => Fin.ext ?_
  obtain ⟨-, -, -, -, -, -, -, e0, e1⟩ := idx_facts t
  match a with
  | ⟨0, _⟩ => show win0_4.index t (0 : Fin 2) * 5000 + 1 * p.val = t.val * 5000 + p.val; omega
  | ⟨1, _⟩ => show win0_4.index t (1 : Fin 2) * 128 + 1 * q.val = q.val; omega

end Cert.KernelIdeal.KValue

end
-- ==== Proof.KernelValue.lean ====
/-
  The idealized kernel's result array as one function of the arrays its region finds: point t writes block t of
  that function, and the 20 blocks cover the result.
-/
import proofs.«163822_j19670950216024_1_alg».proof.Proof.Gen.KernelIdeal.Value
import proofs.«163822_j19670950216024_1_alg».proof.Proof.KernelPay
import proofs.«163822_j19670950216024_1_alg».proof.Proof.KernelBlocks

open scoped BigOperators

noncomputable section

namespace Cert.KernelIdeal.KValue

open Cert.KernelIdeal Cert.KernelIdeal.Gen Cert.KernelIdeal.Value Idealize.ShloMosaic Idealize.ShloMosaic.TcCoe Idealize.SL.Sem
open Idealize.ShloMosaic.ValueIdx Cert.LinearAct
open Idealize.ShloMosaic.Pipeline (Dat)

variable (m : (ℓ : Loc nD τ sig) → Buf (Elt Ideal) ℓ) (ρ : Dev nD → PrngReg)

/-! ## From the blocks to the array -/

/-- The result as one function of the arrays the region finds: the table, the neighbourhood sum (the array of the
    region's second window), the transposed weights and the bias. -/
def whole (c : Dev nD) : S100000x128.Idx → EReal :=
  out (M := 100000) (V m c main_arg0) (V m c (Pipeline.arrRef spec0 1)) (V m c main_v18) (V m c main_arg4)

/-- What point t writes back is block t of that function. -/
theorem flushed_eq (c : Dev nD) (t : Fin cfg0.N) :
    (dats m 0 c).flushed 4 t = ((cfg0.win 4).blk t).view.read (Elt Ideal) (whole m c) := by
  show (cfg0.win 4).cut (grid0.coords t) ((dats m 0 c).after 4 t) = _
  rw [after0_4]
  unfold out0_4
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 3 t) (ix2 p q)
      = whole m c (((cfg0.win 4).blk t).view.emb (ix2 p q))
  rw [emb4 t p q]
  refine (pay_apply _ _ _ _ p q).trans ?_
  unfold whole
  rw [out_ix2]
  exact congrArg leaky (pre_congr _ _ _ _ _ _ _ _ p (row t p) q (fun k => blk0_read m c t p k) (fun k => blk1_read m c t p k)
    (fun k => blk2_read m c t k q) (blk3_read m c t q))

/-- An index of the result is in point t's block iff each coordinate is in the block's range on its axis. -/
theorem mem_blk4 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v19).slice (win0_4.rect t)).set ↔ _
  rw [View.set_slice_whole, Rect.mem_set_unit]
  exact Iff.rfl

/-- Every index of the result is in the block of the point that holds its row. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have ht : (i 0).val / 5000 < cfg0.N := by
    show (i 0).val / 5000 < grid0.N
    rw [N_0]; omega
  obtain ⟨-, -, -, -, -, -, -, e0, e1⟩ := idx_facts ⟨(i 0).val / 5000, ht⟩
  refine ⟨⟨(i 0).val / 5000, ht⟩, flush0_4 _, ?_⟩
  rw [mem_blk4]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    have e0' : win0_4.index ⟨(i 0).val / 5000, ht⟩ (0 : Fin 2) = (i 0).val / 5000 := e0
    omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    omega

/-- The result array after the run. -/
theorem final (c : Dev nD) : (dats m 0 c).arrAt 4 cfg0.N = whole m c :=
  (dats m 0 c).arrAt_eq_of_cover 4 (whole m c) (fun t _ => flushed_eq m c t) cover4

end Cert.KernelIdeal.KValue

end
-- ==== Proof.KernelHost.lean ====
/-
  What the kernel's program has computed on the host when its one region is entered: the neighbourhood sum (the
  region's second operand) and the transposed weight matrix (its third).
-/
import proofs.«163822_j19670950216024_1_alg».proof.Proof.Gen.KernelIdeal.Frame
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-- The neighbourhood sum: for every edge the source row of the table scaled by the edge's weight, added into the
    edge's destination row, starting from zeros. A negative node number is first moved up by the number of rows,
    as the program does before it gathers. -/
def side (ego : FVec F S100000x128 .f32) (ei : IVec S2x1600000 32) (w : FVec F S1600000 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast _ (extractStridedSlice S1x1600000 ![0, 0] ei slices_S2x1600000_S1x1600000_0_0) shapeCasts_S1x1600000_S1600000))
    (mulf
      (Host.gather gather_S100000x128_S1600000x1_S1600000x128_1_0_n_n_0_1_1128 ego
        (broadcastInDim S1600000x1 ![0] bcast_S1600000_S1600000x1_0
          (select
            (cmpi .slt (shapeCast _ (extractStridedSlice S1x1600000 ![1, 0] ei slices_S2x1600000_S1x1600000_1_0) shapeCasts_S1x1600000_S1600000)
              (broadcastInDim S1600000 ![] bcast_S_S1600000 (constantI S_ 32 0#32)))
            (addi (shapeCast _ (extractStridedSlice S1x1600000 ![1, 0] ei slices_S2x1600000_S1x1600000_1_0) shapeCasts_S1x1600000_S1600000)
              (broadcastInDim S1600000 ![] bcast_S_S1600000 (constantI S_ 32 100000#32)))
            (shapeCast _ (extractStridedSlice S1x1600000 ![1, 0] ei slices_S2x1600000_S1x1600000_1_0) shapeCasts_S1x1600000_S1600000))))
      (broadcastInDim S1600000x128 ![0, 1] bcast_S1600000x1_S1600000x128_0_1
        (broadcastInDim S1600000x1 ![0] bcast_S1600000_S1600000x1_0 w)))

/-- The weight matrix transposed, so that the contraction coordinate comes first, and narrowed to the matrix
    unit's input format. -/
def wt (wm : FVec F S128x128 .f32) : FVec F S128x128 .bf16 :=
  truncf .bf16 (transpose S128x128 [1, 0] wm transposes_S128x128_S128x128_1_0) bitsLt_bf16_f32

attribute [local irreducible] Host.gather Host.scatterAdd in
set_option maxRecDepth 8192 in
set_option maxHeartbeats 400000 in
/-- The fold of the host operations at the second operand's buffer is the neighbourhood sum of the arguments. -/
theorem v16_eq (W : Valuation τ sig (Elt F)) :
    after hostOps0 W (main_v16 : DevRef τ sig)
      = side (W (main_arg0 : DevRef τ sig)) (W (main_arg1 : DevRef τ sig)) (W (main_arg2 : DevRef τ sig)) := by
  simp only [after_cons, after_nil]
  rfl

attribute [local irreducible] Host.gather Host.scatterAdd in
set_option maxRecDepth 8192 in
set_option maxHeartbeats 400000 in
/-- The fold of the host operations at the third operand's buffer is the transposed, narrowed weight matrix. -/
theorem v18_eq (W : Valuation τ sig (Elt F)) :
    after hostOps0 W (main_v18 : DevRef τ sig) = wt (W (main_arg3 : DevRef τ sig)) := by
  simp only [after_cons, after_nil]
  rfl

variable (m : (ℓ : Loc nD τ sig) → Buf (Elt F) ℓ)

/-- The region finds its second operand at the neighbourhood sum of the launch contents of the arguments. -/
theorem V_main_v16 (c : Dev nD) :
    V m c main_v16 = side (m ((c : Thread nD τ).loc main_arg0)) (m ((c : Thread nD τ).loc main_arg1)) (m ((c : Thread nD τ).loc main_arg2)) :=
  v16_eq (fun b => m (c, b))

/-- The same, with the buffer named as the array of the region's second window. -/
theorem V_win1 (c : Dev nD) :
    V m c (Pipeline.arrRef spec0 1) = side (m ((c : Thread nD τ).loc main_arg0)) (m ((c : Thread nD τ).loc main_arg1)) (m ((c : Thread nD τ).loc main_arg2)) :=
  v16_eq (fun b => m (c, b))

/-- The region finds its third operand at the transposed, narrowed weight matrix. -/
theorem V_main_v18 (c : Dev nD) : V m c main_v18 = wt (m ((c : Thread nD τ).loc main_arg3)) :=
  v18_eq (fun b => m (c, b))

end Cert.KernelIdeal.KHost

end
-- ==== Proof.KernelRun.lean ====
/-
  The idealized kernel's run, read: its result array ends at the common function of the launch contents of the
  arguments — the table, the neighbourhood sum computed on the host, the transposed weight matrix and the bias.
-/
import proofs.«163822_j19670950216024_1_alg».proof.Proof.KernelValue
import proofs.«163822_j19670950216024_1_alg».proof.Proof.KernelHost

noncomputable section

namespace Cert.KernelIdeal.KValue

open Cert.KernelIdeal Cert.KernelIdeal.Gen Cert.KernelIdeal.Value Idealize.ShloMosaic Idealize.ShloMosaic.TcCoe Idealize.SL.Sem
open Cert.LinearAct

variable (m : (ℓ : Loc nD τ sig) → Buf (Elt Ideal) ℓ) (ρ : Dev nD → PrngReg)

/-- The result as a function of the launch contents: no host operation touches the table or the bias, and the
    other two operands are what the host computed from the arguments. -/
def result (c : Dev nD) : S100000x128.Idx → EReal :=
  out (M := 100000) (m ((c : Thread nD τ).loc main_arg0))
    (KHost.side (F := Ideal) (m ((c : Thread nD τ).loc main_arg0)) (m ((c : Thread nD τ).loc main_arg1)) (m ((c : Thread nD τ).loc main_arg2)))
    (KHost.wt (F := Ideal) (m ((c : Thread nD τ).loc main_arg3))) (m ((c : Thread nD τ).loc main_arg4))

theorem whole_eq (c : Dev nD) : whole m c = result m c := by
  unfold whole result
  rw [V_main_arg0 m c, KHost.V_win1 m c, KHost.V_main_v18 m c, V_main_arg4 m c]

/-- Every weakly fair execution of the idealized kernel's program terminates with the result array at `result`
    and the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (whole_eq m c)), (h c).2⟩) (run_blocks m ρ)

end Cert.KernelIdeal.KValue

end
-- ==== Proof.RefRun.lean ====
/-
  The reference program read as a straight line of host operations, and its run.

  The program gathers a row of the embedding table per edge, scales it by the edge weight, adds the scaled rows into
  the destination rows (a scatter-add from the zero array), adds the table itself, multiplies by the transposed
  weight matrix, adds the bias row and applies the leaky rectifier, which the program calls as a function: the
  function's operations are listed here at the call site, over the buffers the call names.
-/
import proofs.«163822_j19670950216024_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The neighbourhood sum: for every edge the source row of the table scaled by the edge's weight, added into the
    edge's destination row, starting from zeros. A negative node number is first moved up by the number of rows,
    as the program does before it gathers. -/
def side (ego : FVec F S100000x128 .f32) (ei : IVec S2x1600000 32) (w : FVec F S1600000 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast _ (extractStridedSlice S1x1600000 ![0, 0] ei slices_S2x1600000_S1x1600000_0_0) shapeCasts_S1x1600000_S1600000))
    (mulf
      (Host.gather gather_S100000x128_S1600000x1_S1600000x128_1_0_n_n_0_1_1128 ego
        (broadcastInDim S1600000x1 ![0] bcast_S1600000_S1600000x1_0
          (select
            (cmpi .slt (shapeCast _ (extractStridedSlice S1x1600000 ![1, 0] ei slices_S2x1600000_S1x1600000_1_0) shapeCasts_S1x1600000_S1600000)
              (broadcastInDim S1600000 ![] bcast_S_S1600000 (constantI S_ 32 0#32)))
            (addi (shapeCast _ (extractStridedSlice S1x1600000 ![1, 0] ei slices_S2x1600000_S1x1600000_1_0) shapeCasts_S1x1600000_S1600000)
              (broadcastInDim S1600000 ![] bcast_S_S1600000 (constantI S_ 32 100000#32)))
            (shapeCast _ (extractStridedSlice S1x1600000 ![1, 0] ei slices_S2x1600000_S1x1600000_1_0) shapeCasts_S1x1600000_S1600000))))
      (broadcastInDim S1600000x128 ![0, 1] bcast_S1600000x1_S1600000x128_0_1
        (broadcastInDim S1600000x1 ![0] bcast_S1600000_S1600000x1_0 w)))

/-- The pre-activation: the table plus the neighbourhood sum, times the transposed weights, plus the bias row. -/
def pre (x : FVec F S100000x128 .f32) (wm : FVec F S128x128 .f32) (b : FVec F S128 .f32) : FVec F S100000x128 .f32 :=
  addf
    (Host.dotGeneral dot_S100000x128_S128x128_S100000x128_1_0_0_1_n_n none x
      (transpose S128x128 [1, 0] wm transposes_S128x128_S128x128_1_0))
    (broadcastInDim S100000x128 ![0, 1] bcast_S1x128_S100000x128_0_1 (broadcastInDim S1x128 ![1] bcast_S128_S1x128_1 b))

/-- The leaky rectifier as the called function computes it: the value itself where it is at least zero, the slope
    times the value elsewhere. -/
def act (h : FVec F S100000x128 .f32) : FVec F S100000x128 .f32 :=
  select (cmpf .oge h (broadcastInDim S100000x128 ![] bcast_S_S100000x128 (constant S_ .f32 0x00000000#32))) h
    (mulf (broadcastInDim S100000x128 ![] bcast_S_S100000x128 (id (constant S_ .f32 0x3C23D70A#32))) h)

/-- The whole result as one term of the five arguments. -/
def out (ego : FVec F S100000x128 .f32) (ei : IVec S2x1600000 32) (w : FVec F S1600000 .f32) (wm : FVec F S128x128 .f32)
    (b : FVec F S128 .f32) : FVec F S100000x128 .f32 :=
  act (pre (addf ego (side ego ei w)) wm b)

/-- @main's operations in order, the rectifier's seven at its call. -/
abbrev ops : List (HloOp τ sig (Elt F)) :=
  [ unary main_arg1 main_v0 (extractStridedSlice S1x1600000 ![1, 0] · slices_S2x1600000_S1x1600000_1_0),
    reshape main_v0 main_v1 rfl shapeCasts_S1x1600000_S1600000,
    unary main_arg1 main_v2 (extractStridedSlice S1x1600000 ![0, 0] · slices_S2x1600000_S1x1600000_0_0),
    reshape main_v2 main_v3 rfl shapeCasts_S1x1600000_S1600000,
    nullary main_c (constantI S_ 32 0#32),
    unary main_c main_v4 (broadcastInDim S1600000 ![] bcast_S_S1600000),
    binary main_v1 main_v4 main_v5 (cmpi .slt),
    nullary main_c_0 (constantI S_ 32 100000#32),
    unary main_c_0 main_v6 (broadcastInDim S1600000 ![] bcast_S_S1600000),
    binary main_v1 main_v6 main_v7 addi,
    ternary main_v5 main_v7 main_v1 main_v8 select,
    unary main_v8 main_v9 (broadcastInDim S1600000x1 ![0] bcast_S1600000_S1600000x1_0),
    binary main_arg0 main_v9 main_v10 (fun x i => Host.gather gather_S100000x128_S1600000x1_S1600000x128_1_0_n_n_0_1_1128 x i),
    unary main_arg2 main_v11 (broadcastInDim S1600000x1 ![0] bcast_S1600000_S1600000x1_0),
    unary main_v11 main_v12 (broadcastInDim S1600000x128 ![0, 1] bcast_S1600000x1_S1600000x128_0_1),
    binary main_v10 main_v12 main_v13 mulf,
    nullary main_cst (constant S_ .f32 0x00000000#32),
    unary main_cst main_v14 (broadcastInDim S100000x128 ![] bcast_S_S100000x128),
    unary main_v3 main_v15 (broadcastInDim S1600000x1 ![0] bcast_S1600000_S1600000x1_0),
    ternary main_v14 main_v15 main_v13 main_v16 (fun x i u => Host.scatterAdd scatter_S100000x128_S1600000x1_S1600000x128_1_0_0_1 x i u),
    binary main_arg0 main_v16 main_v17 addf,
    unary main_arg3 main_v18 (transpose S128x128 [1, 0] · transposes_S128x128_S128x128_1_0),
    binary main_v17 main_v18 main_v19 (fun l r => Host.dotGeneral dot_S100000x128_S128x128_S100000x128_1_0_0_1_n_n none l r),
    unary main_arg4 main_v20 (broadcastInDim S1x128 ![1] bcast_S128_S1x128_1),
    unary main_v20 main_v21 (broadcastInDim S100000x128 ![0, 1] bcast_S1x128_S100000x128_0_1),
    binary main_v19 main_v21 main_v22 addf,
    nullary main_cst_1 (constant S_ .f32 0x3C23D70A#32),
    TRef.nullary main_call0.cst (constant S_ .f32 0x00000000#32),
    TRef.unary main_call0.cst main_call0.v0 (broadcastInDim S100000x128 ![] bcast_S_S100000x128),
    TRef.binary (.of main_v22) main_call0.v0 main_call0.v1 (cmpf .oge),
    TRef.unary (.of main_cst_1) main_call0.v2 id,
    TRef.unary main_call0.v2 main_call0.v3 (broadcastInDim S100000x128 ![] bcast_S_S100000x128),
    TRef.binary main_call0.v3 (.of main_v22) main_call0.v4 mulf,
    TRef.ternary main_call0.v1 (.of main_v22) main_call0.v4 main_call0.call0.v0 select ]

set_option maxRecDepth 2048 in
/-- @main is that straight line: the called functions unfolded at their calls, the sequencing reassociated. -/
theorem main_eq (c : Dev nD) : main (F := F) c = seq ops := by
  simp only [main, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., binary_bufs_sub .., unary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩

/-- Every weakly fair execution of @main terminates with every buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's result buffer after its run is one term of the five argument arrays, and the arguments are left
  as they were.
-/
import proofs.«163822_j19670950216024_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd in
set_option maxRecDepth 8192 in
set_option maxHeartbeats 400000 in
/-- The fold of the operations at the result buffer is the term `out` of the arguments: each operation's result
    is read where the next takes it, by unfolding the fold. -/
theorem out_eq (V : Valuation τ sig (Elt F)) :
    after ops V (main_v23 : DevRef τ sig)
      = out (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl

/-- Every weakly fair execution of the reference terminates with its result at `out` of the launch contents of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = out (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v23).trans (out_eq _), (h c main_arg0).trans (arg0_eq _),
      (h c main_arg1).trans (arg1_eq _), (h c main_arg2).trans (arg2_eq _), (h c main_arg3).trans (arg3_eq _),
      (h c main_arg4).trans (arg4_eq _)⟩)
    (run_fold m ρ)

end Cert.ReferenceIdeal.RefRun

end
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«163822_j19670950216024_1_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.RefValue.lean ====
/-
  The reference's result term, read on the extended reals, is the common function of the table, the neighbourhood
  sum, the transposed weight matrix and the bias: at entry (i, j) the host's matrix product is the sum over k of
  (table + neighbourhood sum) (i, k) times the transpose at (k, j), the bias is a row laid over all rows, and the
  rectifier's choice on "at least zero" is the same rectifier.
-/
import proofs.«163822_j19670950216024_1_alg».proof.Proof.RefRun
import proofs.«163822_j19670950216024_1_alg».proof.Proof.Spec
import proofs.«163822_j19670950216024_1_alg».proof.Proof.LibDotPlain
import Idealize.ShloMosaic.Lib.ValueIdx
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Idealize.ShloMosaic Idealize.ShloMosaic.ValueIdx Cert.LinearAct

/-- The reference's matrix product is the plain one. -/
theorem dot_plain : dot_S100000x128_S128x128_S100000x128_1_0_0_1_n_n = DotDims.plain 100000 128 128 := rfl

/-- The bias row laid over all rows reads the bias at the column. -/
theorem bias_at (b : FVec Ideal S128 .f32) (i : Fin 100000) (j : Fin 128) :
    broadcastInDim S100000x128 ![0, 1] bcast_S1x128_S100000x128_0_1 (broadcastInDim S1x128 ![1] bcast_S128_S1x128_1 b) (ix2 i j)
      = b (ix1 j) := by
  refine (broadcastInDim_apply ![0, 1] bcast_S1x128_S100000x128_0_1 _ (ix2 i j) (ix2 (0 : Fin 1) j) (fun ax => ?_)).trans
    (broadcastInDim_apply ![1] bcast_S128_S1x128_1 b (ix2 (0 : Fin 1) j) (ix1 j) (fun ax => ?_))
  · match ax with
    | ⟨0, _⟩ => rfl
    | ⟨1, _⟩ => rfl
  · match ax with
    | ⟨0, _⟩ => rfl

/-- A scalar constant laid over the whole array reads the constant. -/
theorem splat_at (w : BitVec 32) (idx : S100000x128.Idx) :
    broadcastInDim S100000x128 ![] bcast_S_S100000x128 (constant (F := Ideal) S_ .f32 w) idx = Ideal.ofBits .f32 w := rfl

/-- Entry (i, j) of the reference's pre-activation. -/
theorem pre_apply (x s : FVec Ideal S100000x128 .f32) (wm : FVec Ideal S128x128 .f32) (b : FVec Ideal S128 .f32)
    (i : Fin 100000) (j : Fin 128) :
    RefRun.pre (addf x s) wm b (ix2 i j)
      = LinearAct.pre (M := 100000) x s (transpose S128x128 [1, 0] wm transposes_S128x128_S128x128_1_0) b i j := by
  unfold RefRun.pre LinearAct.pre
  rw [addf_apply, dot_plain, DotPlain.dotGeneral_apply, bias_at]
  rfl

/-- The reference's result is the common function. -/
theorem out_eq (ego : FVec Ideal S100000x128 .f32) (ei : IVec S2x1600000 32) (w : FVec Ideal S1600000 .f32)
    (wm : FVec Ideal S128x128 .f32) (b : FVec Ideal S128 .f32) :
    RefRun.out ego ei w wm b
      = LinearAct.out (M := 100000) ego (RefRun.side ego ei w) (transpose S128x128 [1, 0] wm transposes_S128x128_S128x128_1_0) b := by
  funext idx
  obtain ⟨i, j, rfl⟩ : ∃ (i : Fin 100000) (j : Fin 128), idx = ix2 i j := ⟨idx 0, idx 1, eq_ix2 idx⟩
  rw [out_ix2]
  unfold RefRun.out RefRun.act
  rw [select_apply, cmpf_apply, mulf_apply, splat_at, pre_apply]
  show Scalar.select (Ideal.cmp .oge _ (Ideal.ofBits .f32 0x00000000#32)) _ (Ideal.ofBits .f32 0x3C23D70A#32 * _) = _
  rw [Ideal.ofBits_zero_f32]
  exact select_ge _

end Cert.ReferenceIdeal.RefValue

end
-- ==== Proof.Bridge.lean ====
/-
  The two programs' results are one function of the arguments. Both compute the neighbourhood sum by the same host
  operations, and the kernel's program narrows the transposed weight matrix to the matrix unit's input format,
  which on the extended reals changes nothing; with these two operands identified, the reference's result is the
  common function the kernel's result array ends at.
-/
import proofs.«163822_j19670950216024_1_alg».proof.Proof.KernelHost
import proofs.«163822_j19670950216024_1_alg».proof.Proof.RefValue

noncomputable section

namespace Cert.Bridge

open Idealize.ShloMosaic Cert.LinearAct

/-- The neighbourhood sum is the same term in both programs, whatever the float values. -/
theorem side_eq {F : FTy → Type} [FloatOps F] (ego : FVec F Cert.KernelIdeal.S100000x128 .f32)
    (ei : IVec Cert.KernelIdeal.S2x1600000 32) (w : FVec F Cert.KernelIdeal.S1600000 .f32) :
    Cert.ReferenceIdeal.RefRun.side ego ei w = Cert.KernelIdeal.KHost.side ego ei w := rfl

/-- On the extended reals the kernel's narrowed transpose is the reference's transpose. -/
theorem wt_eq (wm : FVec Ideal Cert.KernelIdeal.S128x128 .f32) :
    transpose Cert.ReferenceIdeal.S128x128 [1, 0] wm Cert.ReferenceIdeal.Facts₀.transposes_S128x128_S128x128_1_0
      = Cert.KernelIdeal.KHost.wt wm := rfl

/-- The reference's result term is the common function at the kernel program's operands. -/
theorem out_eq (ego : FVec Ideal Cert.KernelIdeal.S100000x128 .f32) (ei : IVec Cert.KernelIdeal.S2x1600000 32)
    (w : FVec Ideal Cert.KernelIdeal.S1600000 .f32) (wm : FVec Ideal Cert.KernelIdeal.S128x128 .f32)
    (b : FVec Ideal Cert.KernelIdeal.S128 .f32) :
    Cert.ReferenceIdeal.RefRun.out ego ei w wm b
      = out (M := 100000) ego (Cert.KernelIdeal.KHost.side ego ei w) (Cert.KernelIdeal.KHost.wt wm) b := by
  rw [Cert.ReferenceIdeal.RefValue.out_eq, side_eq, wt_eq]

end Cert.Bridge

end
-- ==== Proof.lean ====
/-
  The certificate of a graph-convolution layer: for every node the embedding plus the weighted sum of its
  neighbours' embeddings, multiplied by the transposed weight matrix, plus the bias, through a leaky rectifier.

  The kernel's program computes the neighbourhood sum on the host and the dense part — the addition, the matrix
  product, the bias and the rectifier — in one region over 20 blocks of 5000 rows; the reference computes everything
  on the host. On the extended reals both results are, at entry (i, j), the rectifier of
      ∑ k, (x (i, k) + s (i, k)) · W (j, k) + b j,
  with s the neighbourhood sum, the same term in both programs. The kernel narrows its matrix operands, which is the
  identity on the extended reals; its matrix product accumulates into zeros, which adds nothing; and its rectifier
  tests "greater than zero" where the reference's tests "at least zero", which agree because the slope times zero is
  zero. The ideal pass rewrote nothing, so the idealization is the kernel's own text.
-/
import proofs.«163822_j19670950216024_1_alg».proof.Defs
import proofs.«163822_j19670950216024_1_alg».proof.Proof.Gen.Kernel
import proofs.«163822_j19670950216024_1_alg».proof.Proof.Gen.Kernel.Frame
import proofs.«163822_j19670950216024_1_alg».proof.Proof.Gen.KernelIdeal
import proofs.«163822_j19670950216024_1_alg».proof.Proof.Gen.KernelIdeal.Frame
import proofs.«163822_j19670950216024_1_alg».proof.Proof.Gen.ReferenceIdeal
import proofs.«163822_j19670950216024_1_alg».proof.Proof.Gen.Pre_finite_inputs
import proofs.«163822_j19670950216024_1_alg».proof.Proof.KernelRun
import proofs.«163822_j19670950216024_1_alg».proof.Proof.RefTerm
import proofs.«163822_j19670950216024_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end with the result at the common function of the arguments: the kernel's by its value leg, the
    reference's by its run and the bridge between the two terms, the arguments' agreement rewritten. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4⟩ := hagree c
  rw [h0, h1, h2, h3, h4]
  exact Cert.Bridge.out_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
